-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel

variable [Facts]

def fn {F : FTy → Type} [FloatOps F] (main_arg0 : FVec F S32x1024x256 .f32) (main_arg1 : FVec F S32x1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  main_v8
-- ==== Kernel.lean ====
abbrev S32x1024x256 : Shape := ⟨3, ![32, 1024, 256]⟩
abbrev S4x8x128 : Shape := ⟨3, ![4, 8, 128]⟩
abbrev S1x1024x256 : Shape := ⟨3, ![1, 1024, 256]⟩
abbrev S1x8x128 : Shape := ⟨3, ![1, 8, 128]⟩
abbrev S8x128 : Shape := ⟨2, ![8, 128]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩
abbrev S32x128 : Shape := ⟨2, ![32, 128]⟩
abbrev S32x1 : Shape := ⟨2, ![32, 1]⟩
abbrev S32 : Shape := ⟨1, ![32]⟩

abbrev nBuf : Space → Nat
  | .hbm => 6
  | .vmem => 6
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S4x8x128, .f32⟩
  | .hbm, ⟨3, _⟩ => ⟨S32x128, .f32⟩
  | .hbm, ⟨4, _⟩ => ⟨S32x1, .f32⟩
  | .hbm, ⟨5, _⟩ => ⟨S32, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x8x128, .f32⟩
  | .local _ .vmem, ⟨5, _⟩ => ⟨S1x8x128, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  reduces_S1024x1_S1 : S1024x1.Reduces [0] S1
  shapeCasts_S1_S1x1 : S1.ShapeCasts S1x1
  reduces_S1x1024_S1 : S1x1024.Reduces [1] S1
  iota_S8x128_d0_w32 : S8x128.Iotas .tc 32 [0]
  shapeCasts_S1x1_S1x1 : S1x1.ShapeCasts S1x1
  broadcasts_S1x1_S8x128 : S1x1.Broadcasts S8x128
  shapeCasts_S4x8x128_S32x128 : S4x8x128.ShapeCasts S32x128
  slices_S32x128_S32x1_0_0 : S32x128.Slices ![0, 0] S32x1
  shapeCasts_S32x1_S32 : S32x1.ShapeCasts S32
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S32x1024x256.size a
  hwx0_1 : ∀ i : grid0.Coords, EltTy.bits .f32 = 32 ∨ (Rect.block (s := S32x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S_ : Shape := ⟨0, ![]⟩
abbrev S32x1024 : Shape := ⟨2, ![32, 1024]⟩
abbrev S32x1024x1024 : Shape := ⟨3, ![32, 1024, 1024]⟩
abbrev S32x1024x1 : Shape := ⟨3, ![32, 1024, 1]⟩
abbrev S32x1x1024 : Shape := ⟨3, ![32, 1, 1024]⟩
abbrev S32 : Shape := ⟨1, ![32]⟩

abbrev nBuf : Space → Nat
  | .hbm => 33
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x256, .f32⟩
  | .hbm, ⟨3, _⟩ => ⟨S_, .f32⟩
  | .hbm, ⟨4, _⟩ => ⟨S32x1024, .f32⟩
  | .hbm, ⟨5, _⟩ => ⟨S32x1024x256, .f32⟩
  | .hbm, ⟨6, _⟩ => ⟨S_, .f32⟩
  | .hbm, ⟨7, _⟩ => ⟨S32x1024, .f32⟩
  | .hbm, ⟨8, _⟩ => ⟨S32x1024x1024, .f32⟩
  | .hbm, ⟨9, _⟩ => ⟨S32x1024x1, .f32⟩
  | .hbm, ⟨10, _⟩ => ⟨S32x1x1024, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024x1024, .f32⟩
  | .hbm, ⟨20, _⟩ => ⟨S32x1024x1024, .f32⟩
  | .hbm, ⟨21, _⟩ => ⟨S_, .f32⟩
  | .hbm, ⟨22, _⟩ => ⟨S32x1024, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32x1024, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S32x1024_d1 : S32x1024x1024.ReducesTo [1] S32x1024
  reducesTo_S32x1024_S32_d1 : S32x1024.ReducesTo [1] S32
  reducesTo_S32x1024x1024_S32x1024_d2 : S32x1024x1024.ReducesTo [2] S32x1024
  bcast_S_S32 : S_.BroadcastsInDim S32 (![] : Fin 0 → Fin S32.rank)
  dot_S32x1024x256_S32x1024x256_S32x1024x1024_2_2_1_1_0_0_wf : DotDims.WF S32x1024x256 S32x1024x256 S32x1024x1024 [2] [2] [1] [1] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf

class Facts : Prop extends Facts₀ where

variable [Facts]
-- ==== Proof.Spec.lean ====
/-
  The mathematics both programs compute, stated once over two point clouds.

  A cloud is 1024 points of 256 coordinates, each coordinate an extended real. For clouds `X` and `Y`:
    * `sqNorm X n`      — the squared length of point `n`: the sum over its coordinates of their squares;
    * `inner X Y n m`   — the inner product of point `n` of `X` with point `m` of `Y`;
    * `dist X Y n m`    — the squared distance in its expanded form, |x|² + |y|² − 2⟨x, y⟩, clamped below at zero;
    * `nearX X Y m`     — the least distance from point `m` of `Y` to any point of `X` (a minimum over `n`,
                            from +∞);
    * `nearY X Y n`     — the least distance from point `n` of `X` to any point of `Y` (a minimum over `m`);
    * `softHausdorff`   — the two sums of least distances added, then scaled by 2⁻¹⁰ = 1/1024.
  The literals stay as the 32-bit words both programs print (2.0, +0.0, +∞, 2⁻¹⁰); only two are ever read as
  numbers, in the one law that joins the two programs: multiplying by the word of 2⁻¹⁰ is dividing by the word of
  1024, at every extended real (`mul_scale_eq_div`).
-/
import Idealize.ShloMosaic.PureOps.Ideal
import Idealize.ShloMosaic.Lib.ValueIdx

noncomputable section

namespace Cert.SoftHd

open Idealize.ShloMosaic

/-- 1024 points of 256 coordinates. -/
abbrev Cloud : Type := Fin 1024 → Fin 256 → EReal

/-- The squared length of point `n`. -/
def sqNorm (X : Cloud) (n : Fin 1024) : EReal := ∑ d : Fin 256, X n d * X n d

/-- The inner product of point `n` of `X` with point `m` of `Y`. -/
def inner (X Y : Cloud) (n m : Fin 1024) : EReal := ∑ d : Fin 256, X n d * Y m d

/-- The expanded squared distance |x|² + |y|² − 2⟨x, y⟩ between point `n` of `X` and point `m` of `Y`, clamped at zero. -/
def dist (X Y : Cloud) (n m : Fin 1024) : EReal :=
  max (sqNorm X n + sqNorm Y m - Ideal.ofBits .f32 0x40000000#32 * inner X Y n m) (Ideal.ofBits .f32 0x00000000#32)

/-- The least distance from point `m` of `Y` to the cloud `X`: the minimum over `n`, starting from +∞. -/
def nearX (X Y : Cloud) (m : Fin 1024) : EReal :=
  (Finset.univ : Finset (Fin 1024)).fold min (Ideal.ofBits .f32 0x7F800000#32) (fun n => dist X Y n m)

/-- The least distance from point `n` of `X` to the cloud `Y`: the minimum over `m`, starting from +∞. -/
def nearY (X Y : Cloud) (n : Fin 1024) : EReal :=
  (Finset.univ : Finset (Fin 1024)).fold min (Ideal.ofBits .f32 0x7F800000#32) (fun m => dist X Y n m)

/-- Both directions' least distances summed, then scaled by 2⁻¹⁰. -/
def softHausdorff (X Y : Cloud) : EReal :=
  (∑ m : Fin 1024, nearX X Y m + ∑ n : Fin 1024, nearY X Y n) * Ideal.ofBits .f32 0x3A800000#32

/-- Cloud `b` of a stack of 32 clouds. -/
def cloudOf (x : (⟨3, ![32, 1024, 256]⟩ : Shape).Idx → EReal) (b : Fin 32) : Cloud :=
  fun n d => x (ValueIdx.ix3 b n d)

/-- The result both programs end with: entry `b` is the scaled sum for the `b`-th pair of clouds. -/
def result (x y : (⟨3, ![32, 1024, 256]⟩ : Shape).Idx → EReal) : (⟨1, ![32]⟩ : Shape).Idx → EReal :=
  fun i => softHausdorff (cloudOf x (i 0)) (cloudOf y (i 0))

/-- The word of +0.0 denotes zero. -/
theorem ofBits_zero : Ideal.ofBits .f32 0x00000000#32 = 0 := by
  simp [Ideal.ofBits, Ideal.ieee]

/-- The word 0x44800000 denotes the real 1024. -/
theorem ofBits_1024 : Ideal.ofBits .f32 0x44800000#32 = ((1024 : ℝ) : EReal) := by
  simp [Ideal.ofBits, Ideal.ieee, -EReal.coe_mul]; norm_num

/-- The word 0x3A800000 denotes the real 1/1024 = 2⁻¹⁰, exactly. -/
theorem ofBits_scale : Ideal.ofBits .f32 0x3A800000#32 = ((1 / 1024 : ℝ) : EReal) := by
  simp [Ideal.ofBits, Ideal.ieee, -EReal.coe_mul]; norm_num

/-- Scaling by 2⁻¹⁰ is dividing by 1024, at every extended real (the infinities included). -/
theorem mul_scale_eq_div (a : EReal) :
    a * Ideal.ofBits .f32 0x3A800000#32 = Ideal.div a (Ideal.ofBits .f32 0x44800000#32) := by
  rw [ofBits_scale, ofBits_1024, Ideal.div_coe (by norm_num : (1024 : ℝ) ≠ 0)]

end Cert.SoftHd

end
-- ==== Proof.RefValue.lean ====
/-
  The reference's result is the soft-Hausdorff value of each pair of clouds.

  Entry `b` of the reference's last array is (Σₘ minₙ dist + Σₙ minₘ dist) / 1024 over the `b`-th clouds of the two
  arguments, `dist` the clamped expanded squared distance: the sums of squares and the inner products are the
  reference's three contractions over the coordinate axis read at an index, each minimum is a reduction over one axis
  read as a fold of `min` from +∞ over that axis's coordinates, and dividing by 1024 is scaling by 2⁻¹⁰.
-/
import proofs.«421566_j30399778521506_3_alg».proof.Proof.Gen.ReferenceIdeal.Run
import proofs.«421566_j30399778521506_3_alg».proof.Proof.Gen.ReferenceIdeal.Read
import proofs.«421566_j30399778521506_3_alg».proof.Proof.Spec
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- The array of the first argument's squared lengths, at (b, n): the sum over the coordinates of point n of cloud b
    of their squares (the sum's initial word is zero). -/
theorem sqX_eq (x0 : (⟨S32x1024x256, .f32⟩ : BufTy).Contents (Elt Ideal)) (b : Fin 32) (n : Fin 1024) :
    val_main_v1 (F := Ideal) x0 (ix2 b n) = Cert.SoftHd.sqNorm (Cert.SoftHd.cloudOf x0 b) n := by
  rw [val_main_v1_apply, val_main_cst_apply, Ideal.ofBits_def, Cert.SoftHd.ofBits_zero, zero_add]
  unfold Cert.SoftHd.sqNorm Cert.SoftHd.cloudOf
  refine Finset.sum_congr rfl fun d _ => ?_
  rw [val_main_v0_apply, Ideal.mulf_def]
  have e : idx_main_v1 (ix2 b n) d = ix3 b n d :=
    funext fun a => by match a with | ⟨0, _⟩ => rfl | ⟨1, _⟩ => rfl | ⟨2, _⟩ => rfl
  rw [e]

/-- The same for the second argument, at (b, m). -/
theorem sqY_eq (x1 : (⟨S32x1024x256, .f32⟩ : BufTy).Contents (Elt Ideal)) (b : Fin 32) (m : Fin 1024) :
    val_main_v3 (F := Ideal) x1 (ix2 b m) = Cert.SoftHd.sqNorm (Cert.SoftHd.cloudOf x1 b) m := by
  rw [val_main_v3_apply, val_main_cst_0_apply, Ideal.ofBits_def, Cert.SoftHd.ofBits_zero, zero_add]
  unfold Cert.SoftHd.sqNorm Cert.SoftHd.cloudOf
  refine Finset.sum_congr rfl fun d _ => ?_
  rw [val_main_v2_apply, Ideal.mulf_def]
  have e : idx_main_v3 (ix2 b m) d = ix3 b m d :=
    funext fun a => by match a with | ⟨0, _⟩ => rfl | ⟨1, _⟩ => rfl | ⟨2, _⟩ => rfl
  rw [e]

/-- The batched contraction at (b, n, m): the inner product of point n of the first cloud with point m of the second. -/
theorem inner_eq (x0 x1 : (⟨S32x1024x256, .f32⟩ : BufTy).Contents (Elt Ideal)) (b : Fin 32) (n m : Fin 1024) :
    val_main_v4 (F := Ideal) x0 x1 (ix3 b n m)
      = Cert.SoftHd.inner (Cert.SoftHd.cloudOf x0 b) (Cert.SoftHd.cloudOf x1 b) n m := by
  rw [val_main_v4_apply]
  unfold Cert.SoftHd.inner Cert.SoftHd.cloudOf
  refine Finset.sum_congr rfl fun d _ => ?_
  have el : lidx_main_v4 (ix3 b n m) d = ix3 b n d :=
    funext fun a => by match a with | ⟨0, _⟩ => rfl | ⟨1, _⟩ => rfl | ⟨2, _⟩ => rfl
  have er : ridx_main_v4 (ix3 b n m) d = ix3 b m d :=
    funext fun a => by match a with | ⟨0, _⟩ => rfl | ⟨1, _⟩ => rfl | ⟨2, _⟩ => rfl
  rw [el, er]

/-- The first squared lengths spread along the last axis: at (b, n, m) the squared length of point n. -/
theorem spreadX_eq (x0 : (⟨S32x1024x256, .f32⟩ : BufTy).Contents (Elt Ideal)) (b : Fin 32) (n m : Fin 1024) :
    val_main_v7 (F := Ideal) x0 (ix3 b n m) = Cert.SoftHd.sqNorm (Cert.SoftHd.cloudOf x0 b) n := by
  rw [val_main_v7_apply, val_main_v5_apply, ← sqX_eq x0 b n]
  refine congrArg (val_main_v1 (F := Ideal) x0) ?_
  exact funext fun a => by match a with | ⟨0, _⟩ => rfl | ⟨1, _⟩ => rfl

/-- The second squared lengths spread along the middle axis: at (b, n, m) the squared length of point m. -/
theorem spreadY_eq (x1 : (⟨S32x1024x256, .f32⟩ : BufTy).Contents (Elt Ideal)) (b : Fin 32) (n m : Fin 1024) :
    val_main_v8 (F := Ideal) x1 (ix3 b n m) = Cert.SoftHd.sqNorm (Cert.SoftHd.cloudOf x1 b) m := by
  rw [val_main_v8_apply, val_main_v6_apply, ← sqY_eq x1 b m]
  refine congrArg (val_main_v3 (F := Ideal) x1) ?_
  exact funext fun a => by match a with | ⟨0, _⟩ => rfl | ⟨1, _⟩ => rfl

/-- The clamped distance array at (b, n, m) is the specification's distance between point n of the first cloud and
    point m of the second: |x|² + |y|² − 2⟨x, y⟩, then the maximum with zero. -/
theorem dist_eq (x0 x1 : (⟨S32x1024x256, .f32⟩ : BufTy).Contents (Elt Ideal)) (b : Fin 32) (n m : Fin 1024) :
    val_main_v14 (F := Ideal) x0 x1 (ix3 b n m)
      = Cert.SoftHd.dist (Cert.SoftHd.cloudOf x0 b) (Cert.SoftHd.cloudOf x1 b) n m := by
  rw [val_main_v14_apply, val_main_v12_apply, val_main_v9_apply, val_main_v11_apply, val_main_v10_apply,
    val_main_cst_1_apply, val_main_v13_apply, val_main_cst_2_apply, spreadX_eq, spreadY_eq, inner_eq]
  unfold Cert.SoftHd.dist
  simp only [Ideal.maximumf_def, Ideal.subf_def, Ideal.addf_def, Ideal.mulf_def, Ideal.ofBits_def]

/-- The shape fact that names the index inserted on the middle axis. -/
theorem reduces_d1 : S32x1024x1024.Reduces [1] S32x1024 := by decide

/-- The shape fact that names the index inserted on the last axis. -/
theorem reduces_d2 : S32x1024x1024.Reduces [2] S32x1024 := by decide

/-- Putting coordinate n back on the middle axis of (b, m) gives (b, n, m). -/
theorem lift_d1 (b : Fin 32) (m n : Fin 1024) : reduces_d1.lift (ix2 b m) n = ix3 b n m := by
  funext c; apply Fin.ext
  match c with | ⟨0, _⟩ => rfl | ⟨1, _⟩ => rfl | ⟨2, _⟩ => rfl

/-- Putting coordinate m back on the last axis of (b, n) gives (b, n, m). -/
theorem lift_d2 (b : Fin 32) (n m : Fin 1024) : reduces_d2.lift (ix2 b n) m = ix3 b n m := by
  funext c; apply Fin.ext
  match c with | ⟨0, _⟩ => rfl | ⟨1, _⟩ => rfl | ⟨2, _⟩ => rfl

/-- At the extended reals the minimum operation of the float interface is `min`, so a fold of one is a fold of the other. -/
theorem fold_minimumf_eq_fold_min {ι : Type} (s : Finset ι) (init : EReal) (f : ι → EReal) :
    s.fold (FloatOps.minimumf (F := Ideal) (φ := .f32)) init f = s.fold min init f := rfl

/-- The minimum over the middle axis at (b, m): the least distance from point m of the second cloud to the first. -/
theorem nearX_eq (x0 x1 : (⟨S32x1024x256, .f32⟩ : BufTy).Contents (Elt Ideal)) (b : Fin 32) (m : Fin 1024) :
    val_main_v15 (F := Ideal) x0 x1 (ix2 b m)
      = Cert.SoftHd.nearX (Cert.SoftHd.cloudOf x0 b) (Cert.SoftHd.cloudOf x1 b) m := by
  unfold val_main_v15
  rw [Host.reduce_eq_fold_single FloatOps.minimumf _ _ reducesTo_S32x1024x1024_S32x1024_d1 reduces_d1 h_S_,
    val_main_cst_3_apply, Ideal.ofBits_def]
  unfold Cert.SoftHd.nearX
  have hf : (val_main_v14 (F := Ideal) x0 x1 ∘ reduces_d1.lift (ix2 b m))
      = fun n : Fin 1024 => Cert.SoftHd.dist (Cert.SoftHd.cloudOf x0 b) (Cert.SoftHd.cloudOf x1 b) n m :=
    funext fun n => (congrArg (val_main_v14 (F := Ideal) x0 x1) (lift_d1 b m n)).trans (dist_eq x0 x1 b n m)
  rw [hf]
  exact fold_minimumf_eq_fold_min _ _ _

/-- The minimum over the last axis at (b, n): the least distance from point n of the first cloud to the second. -/
theorem nearY_eq (x0 x1 : (⟨S32x1024x256, .f32⟩ : BufTy).Contents (Elt Ideal)) (b : Fin 32) (n : Fin 1024) :
    val_main_v17 (F := Ideal) x0 x1 (ix2 b n)
      = Cert.SoftHd.nearY (Cert.SoftHd.cloudOf x0 b) (Cert.SoftHd.cloudOf x1 b) n := by
  unfold val_main_v17
  rw [Host.reduce_eq_fold_single FloatOps.minimumf _ _ reducesTo_S32x1024x1024_S32x1024_d2 reduces_d2 h_S_,
    val_main_cst_5_apply, Ideal.ofBits_def]
  unfold Cert.SoftHd.nearY
  have hf : (val_main_v14 (F := Ideal) x0 x1 ∘ reduces_d2.lift (ix2 b n))
      = fun m : Fin 1024 => Cert.SoftHd.dist (Cert.SoftHd.cloudOf x0 b) (Cert.SoftHd.cloudOf x1 b) n m :=
    funext fun m => (congrArg (val_main_v14 (F := Ideal) x0 x1) (lift_d2 b n m)).trans (dist_eq x0 x1 b n m)
  rw [hf]
  exact fold_minimumf_eq_fold_min _ _ _

/-- The sum over m of the least distances to the first cloud (the sum's initial word is zero). -/
theorem sumX_eq (x0 x1 : (⟨S32x1024x256, .f32⟩ : BufTy).Contents (Elt Ideal)) (b : Fin 32) :
    val_main_v16 (F := Ideal) x0 x1 (ix1 b)
      = ∑ m : Fin 1024, Cert.SoftHd.nearX (Cert.SoftHd.cloudOf x0 b) (Cert.SoftHd.cloudOf x1 b) m := by
  rw [val_main_v16_apply, val_main_cst_4_apply, Ideal.ofBits_def, Cert.SoftHd.ofBits_zero, zero_add]
  refine Finset.sum_congr rfl fun m _ => ?_
  rw [← nearX_eq x0 x1 b m]
  refine congrArg (val_main_v15 (F := Ideal) x0 x1) ?_
  exact funext fun a => by match a with | ⟨0, _⟩ => rfl | ⟨1, _⟩ => rfl

/-- The sum over n of the least distances to the second cloud (the sum's initial word is zero). -/
theorem sumY_eq (x0 x1 : (⟨S32x1024x256, .f32⟩ : BufTy).Contents (Elt Ideal)) (b : Fin 32) :
    val_main_v18 (F := Ideal) x0 x1 (ix1 b)
      = ∑ n : Fin 1024, Cert.SoftHd.nearY (Cert.SoftHd.cloudOf x0 b) (Cert.SoftHd.cloudOf x1 b) n := by
  rw [val_main_v18_apply, val_main_cst_6_apply, Ideal.ofBits_def, Cert.SoftHd.ofBits_zero, zero_add]
  refine Finset.sum_congr rfl fun n _ => ?_
  rw [← nearY_eq x0 x1 b n]
  refine congrArg (val_main_v17 (F := Ideal) x0 x1) ?_
  exact funext fun a => by match a with | ⟨0, _⟩ => rfl | ⟨1, _⟩ => rfl

/-- The reference's last stage, as a function of the two argument arrays, is the specification's `result`. -/
theorem reference_eq (x0 x1 : (⟨S32x1024x256, .f32⟩ : BufTy).Contents (Elt Ideal)) :
    val_main_v21 (F := Ideal) x0 x1 = Cert.SoftHd.result x0 x1 := by
  funext i
  obtain ⟨b, rfl⟩ : ∃ b : Fin 32, i = ix1 b := ⟨i 0, eq_ix1 i⟩
  rw [val_main_v21_apply, val_main_v20_apply, val_main_cst_7_apply, val_main_v19_apply, sumX_eq, sumY_eq,
    Ideal.hostDivf_def, Ideal.addf_def, Ideal.ofBits_def, ← Cert.SoftHd.mul_scale_eq_div]
  -- what is left is the specification's `result` at entry b, unfolded: the two sums added, times the word of 2⁻¹⁰
  rfl

end Cert.ReferenceIdeal.RefValue

end
-- ==== Proof.PayValue.lean ====
/-
  What one grid point computes: the soft-Hausdorff value of the two blocks it loads.

  The body's arithmetic between its loads and its last store is one pure term of the two loaded blocks (a [1,1]
  vector). Read at its one index it is (Σₘ minₙ dist + Σₙ minₘ dist) · 2⁻¹⁰ of the two clouds the blocks hold: the row
  sums of squares are lane reductions, the inner products one matrix product into a zero accumulator (the change of
  float format in front of it is the identity on extended reals), the column of squared lengths of the second cloud is
  turned into a row by a transpose and both are broadcast over the 1024 × 1024 square, and the two minima are
  reductions over one axis each, read as folds of `min` from +∞.
-/
import proofs.«421566_j30399778521506_3_alg».proof.Proof.Gen.KernelIdeal.Skeleton
import proofs.«421566_j30399778521506_3_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen
open Idealize.ShloMosaic Idealize.ShloMosaic.ValueIdx

/-- The cloud a loaded [1, 1024, 256] block holds. -/
def cloudOfBlock (x : Vec Ideal S1x1024x256 .f32) : Cert.SoftHd.Cloud := fun n d => x (ix3 (0 : Fin 1) n d)

/-! ## Layout operations read at an index -/

section Layout
variable {α : Type}

/-- A length-`a` vector cast to a column `[a, 1]` reads, at `(i, u)`, the operand at `i`: the two row-major
    positions are `i` and `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions over one axis of a matrix -/

/-- The sum over the columns of a matrix: at row `n`, the sum over `d` of the entries `(n, d)`. -/
theorem sum_axis1_apply {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (n : Fin a) :
    multiReduction .add [1] ⟨1, ![a]⟩ src acc h hφ hacc (ix1 n) = ∑ d : Fin b, src (ix2 n d) := by
  refine (Ideal.multiReduction_add_single src acc h hφ hacc (ix1 n)).trans ?_
  refine Finset.sum_congr rfl fun d _ => congrArg src ?_
  funext c; apply Fin.ext
  match c with
  | ⟨0, _⟩ => rfl
  | ⟨1, _⟩ => rfl

/-- The sum over the rows of a matrix: at column `m`, the sum over `n` of the entries `(n, m)`. -/
theorem sum_axis0_apply {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (m : Fin b) :
    multiReduction .add [0] ⟨1, ![b]⟩ src acc h hφ hacc (ix1 m) = ∑ n : Fin a, src (ix2 n m) := by
  refine (Ideal.multiReduction_add_single src acc h hφ hacc (ix1 m)).trans ?_
  refine Finset.sum_congr rfl fun n _ => congrArg src ?_
  funext c; apply Fin.ext
  match c with
  | ⟨0, _⟩ => rfl
  | ⟨1, _⟩ => rfl

/-- A minimum reduction over one axis is the fold of `min`, from the accumulator's value, over that axis's
    coordinates: the minimum commutes and associates, so the set of indices over a result index may be folded in the
    order of the dropped coordinate. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the columns of a matrix: at row `n`, the fold of `min` over `m` of the entries `(n, m)`. -/
theorem min_axis1_apply {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.minimumf.neutral .f32 hφ)
    (n : Fin a) :
    multiReduction .minimumf [1] ⟨1, ![a]⟩ src acc h hφ hacc (ix1 n)
      = (Finset.univ : Finset (Fin b)).fold min (Ideal.ofBits .f32 acc) (fun m => src (ix2 n m)) := by
  refine (multiReduction_minimumf_single src acc h hφ hacc (ix1 n)).trans ?_
  refine Finset.fold_congr fun m _ => congrArg src ?_
  funext c; apply Fin.ext
  match c with
  | ⟨0, _⟩ => rfl
  | ⟨1, _⟩ => rfl

/-- The minimum over the rows of a matrix: at column `m`, the fold of `min` over `n` of the entries `(n, m)`. -/
theorem min_axis0_apply {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.minimumf.neutral .f32 hφ)
    (m : Fin b) :
    multiReduction .minimumf [0] ⟨1, ![b]⟩ src acc h hφ hacc (ix1 m)
      = (Finset.univ : Finset (Fin a)).fold min (Ideal.ofBits .f32 acc) (fun n => src (ix2 n m)) := by
  refine (multiReduction_minimumf_single src acc h hφ hacc (ix1 m)).trans ?_
  refine Finset.fold_congr fun n _ => congrArg src ?_
  funext c; apply Fin.ext
  match c with
  | ⟨0, _⟩ => rfl
  | ⟨1, _⟩ => rfl

/-! ## The matrix product read at an index -/

/-- The left operand's row is the result's row: axis 0 of the left operand is its kept axis. -/
theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl

/-- The left operand's column is the contraction coordinate: axis 1 of the left operand is contracted. -/
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q

/-- The right operand's row is the result's column: axis 0 of the right operand is its kept axis. -/
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- The right operand's column is the contraction coordinate: axis 1 of the right operand is contracted. -/
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The matrix product into a zero accumulator, with both operands contracted along their second axis: entry `(n, m)`
    is the inner product of row `n` of the left operand with row `m` of the right one. -/
theorem matmul_zero_apply {φ₁ φ₂ : FTy} (lhs : FVec Ideal S1024x256 φ₁) (rhs : FVec Ideal S1024x256 φ₂) (n m : Fin 1024) :
    matmul dot_S1024x256_S1024x256_S1024x1024_1_1_0_0_n_n none lhs rhs (constant S1024x1024 .f32 0x00000000#32) (ix2 n m)
      = ∑ d : Fin 256, lhs (ix2 n d) * rhs (ix2 m d) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 n m) ((contrEquiv1 dot_S1024x256_S1024x256_S1024x1024_1_1_0_0_n_n 256 rfl rfl).symm k) = ix2 n k :=
    funext fun a => Fin.ext (by
      match a with
      | ⟨0, _⟩ => exact lhs_dot_0 _ _
      | ⟨1, _⟩ => exact (lhs_dot_1 _ _).trans hk)
  have er : dot_S1024x256_S1024x256_S1024x1024_1_1_0_0_n_n.rhsIdx (ix2 n m) ((contrEquiv1 dot_S1024x256_S1024x256_S1024x1024_1_1_0_0_n_n 256 rfl rfl).symm k) = ix2 m k :=
    funext fun a => Fin.ext (by
      match a with
      | ⟨0, _⟩ => exact rhs_dot_0 _ _
      | ⟨1, _⟩ => exact (rhs_dot_1 _ _).trans hk)
  rw [el, er]

/-! ## The body's stages read at an index -/

/-- The column of squared lengths: the block cast to a matrix, squared entrywise, summed along each row, and the
    vector of sums cast to a column, reads at `(n, u)` the squared length of point `n` of the block's cloud. -/
theorem sqcol_apply (x : Vec Ideal S1x1024x256 .f32) (h1 : S1x1024x256.ShapeCasts S1024x256) (acc : BitVec (FTy.bits .f32))
    (h2 : S1024x256.Reduces [1] S1024) (hφ : FKind.Formats .f32) (hacc : acc = FKind.add.neutral .f32 hφ)
    (h3 : S1024.ShapeCasts S1024x1) (n : Fin 1024) (u : Fin 1) :
    shapeCast S1024x1 (multiReduction .add [1] S1024
        (mulf (shapeCast S1024x256 x h1 : FVec Ideal S1024x256 .f32) (shapeCast S1024x256 x h1)) acc h2 hφ hacc) h3 (ix2 n u)
      = Cert.SoftHd.sqNorm (cloudOfBlock x) n := by
  rw [shapeCast_a_a1_apply, sum_axis1_apply]
  unfold Cert.SoftHd.sqNorm cloudOfBlock
  refine Finset.sum_congr rfl fun d _ => ?_
  rw [mulf_apply, shapeCast_1ab_ab_apply]

/-- The matrix of inner products: both blocks cast to matrices, their float format changed (the identity on extended
    reals) and multiplied into a zero accumulator, reads at `(n, m)` the inner product of point `n` of the first
    cloud with point `m` of the second. -/
theorem inner_apply (x y : Vec Ideal S1x1024x256 .f32) (h1 : S1x1024x256.ShapeCasts S1024x256)
    (hb : FTy.bits .bf16 < FTy.bits .f32) (n m : Fin 1024) :
    matmul dot_S1024x256_S1024x256_S1024x1024_1_1_0_0_n_n none
        (truncf .bf16 (shapeCast S1024x256 x h1 : FVec Ideal S1024x256 .f32) hb)
        (truncf .bf16 (shapeCast S1024x256 y h1 : FVec Ideal S1024x256 .f32) hb)
        (constant S1024x1024 .f32 0x00000000#32) (ix2 n m)
      = Cert.SoftHd.inner (cloudOfBlock x) (cloudOfBlock y) n m := by
  rw [matmul_zero_apply]
  unfold Cert.SoftHd.inner cloudOfBlock
  refine Finset.sum_congr rfl fun d _ => ?_
  rw [truncf_apply, truncf_apply, shapeCast_1ab_ab_apply, shapeCast_1ab_ab_apply]

/-- The matrix of clamped distances from two columns `A`, `B` and a matrix `M`: the first column broadcast along the
    rows, the second transposed to a row and broadcast along the columns, their sum less a splat times `M`, clamped
    below by another splat. At `(n, m)` it reads `max (A n + B m − two · M n m) zero`. -/
theorem clamp_apply (A B : FVec Ideal S1024x1 .f32) (M : FVec Ideal S1024x1024 .f32) (two zero : Ideal .f32)
    (hb1 : S1024x1.Broadcasts S1024x1024) (ht : S1024x1.Transposes [1, 0] S1x1024) (hb2 : S1x1024.Broadcasts S1024x1024)
    (n m : Fin 1024) :
    maximumf (subf (addf (broadcastTo S1024x1024 A hb1) (broadcastTo S1024x1024 (transpose S1x1024 [1, 0] B ht) hb2))
        (mulf (broadcast S1024x1024 two) M)) (broadcast S1024x1024 zero) (ix2 n m)
      = max (A (ix2 n (0 : Fin 1)) + B (ix2 m (0 : Fin 1)) - two * M (ix2 n m)) zero := by
  rw [maximumf_apply, subf_apply, addf_apply, mulf_apply, broadcast_apply, broadcast_apply,
    broadcastTo_a1_ab_apply, broadcastTo_1b_ab_apply, transpose_ix2_apply]

/-- The tail of the body over any 1024 × 1024 matrix `Dm` whose entries are the distances between two clouds: the minimum
    over the rows summed over the columns, plus the minimum over the columns summed over the rows, times the splat of
    2⁻¹⁰, is the soft-Hausdorff value of the clouds. -/
theorem tail_apply (Dm : FVec Ideal S1024x1024 .f32) (X Y : Cert.SoftHd.Cloud)
    (hD : ∀ n m : Fin 1024, Dm (ix2 n m) = Cert.SoftHd.dist X Y n m)
    (hφ : FKind.Formats .f32) (hadd : (0x00000000#32 : BitVec (FTy.bits .f32)) = FKind.add.neutral .f32 hφ)
    (hmin : (0x7F800000#32 : BitVec (FTy.bits .f32)) = FKind.minimumf.neutral .f32 hφ)
    (hr0 : S1024x1024.Reduces [0] S1024) (hr1 : S1024x1024.Reduces [1] S1024)
    (hc1 : S1024.ShapeCasts S1x1024) (hc2 : S1024.ShapeCasts S1024x1)
    (hs1 : S1x1024.Reduces [1] S1) (hs0 : S1024x1.Reduces [0] S1) (hc3 : S1.ShapeCasts S1x1) :
    mulf
        (addf
          (shapeCast S1x1 (multiReduction .add [1] S1
            (shapeCast S1x1024 (multiReduction .minimumf [0] S1024 Dm 0x7F800000#32 hr0 hφ hmin) hc1)
            0x00000000#32 hs1 hφ hadd) hc3)
          (shapeCast S1x1 (multiReduction .add [0] S1
            (shapeCast S1024x1 (multiReduction .minimumf [1] S1024 Dm 0x7F800000#32 hr1 hφ hmin) hc2)
            0x00000000#32 hs0 hφ hadd) hc3))
        (broadcast S1x1 (FloatOps.ofBits .f32 0x3A800000#32)) (ix2 (0 : Fin 1) (0 : Fin 1))
      = Cert.SoftHd.softHausdorff X Y := by
  rw [mulf_apply, addf_apply, broadcast_apply, shapeCast_a_1a_apply, shapeCast_a_1a_apply, sum_axis1_apply, sum_axis0_apply]
  unfold Cert.SoftHd.softHausdorff Cert.SoftHd.nearX Cert.SoftHd.nearY
  refine congrArg₂ (· * ·) (congrArg₂ (· + ·) (Finset.sum_congr rfl fun m _ => ?_) (Finset.sum_congr rfl fun n _ => ?_)) rfl
  · rw [shapeCast_a_1a_apply, min_axis0_apply]
    exact Finset.fold_congr fun n _ => hD n m
  · rw [shapeCast_a_a1_apply, min_axis1_apply]
    exact Finset.fold_congr fun m _ => hD n m

/-- The body's scalar result, read at its one index, is the soft-Hausdorff value of the two loaded clouds. -/
theorem pay3_eq (x0 x1 : Vec Ideal S1x1024x256 .f32) :
    k0_pay3 (F := Ideal) x0 x1 (ix2 (0 : Fin 1) (0 : Fin 1))
      = Cert.SoftHd.softHausdorff (cloudOfBlock x0) (cloudOfBlock x1) := by
  unfold k0_pay3
  refine tail_apply _ (cloudOfBlock x0) (cloudOfBlock x1) (fun n m => ?_) _ _ _ _ _ _ _ _ _ _
  refine (clamp_apply _ _ _ _ _ _ _ _ n m).trans ?_
  unfold Cert.SoftHd.dist
  exact congrArg₂ max
    (congrArg₂ (· - ·)
      (congrArg₂ (· + ·) (sqcol_apply x0 _ _ _ _ _ _ n 0) (sqcol_apply x1 _ _ _ _ _ _ m 0))
      (congrArg (_ * ·) (inner_apply x0 x1 _ _ n m)))
    rfl

end Cert.KernelIdeal.PayValue

end
-- ==== Proof.AccValue.lean ====
/-
  What the kernel's result array holds after the run, and what the host lines after the region make of it.

  The grid is 4 groups of 8 points; point t = 8·g + k loads the t-th cloud of each argument, computes one scalar s(t) —
  the soft-Hausdorff value of that pair of clouds — and adds it into row k of the group's [8, 128] output block, through
  a one-hot mask on the row number; the block is zeroed at the first point of each group and written back after the last.
  So after point t row r of the block holds s(8·g + r) for r ≤ k and zero above (an induction over the points: zero is
  neutral for the sum on the extended reals, and exactly one row takes a summand at each point), the written-back block
  of group g is (r, lane) ↦ s(8·g + r), the four blocks tile the [4, 8, 128] array, and the host's reshape to [32, 128],
  column 0, reshape to [32] read entry b at (b / 8, b % 8, 0): s(b).
-/
import proofs.«421566_j30399778521506_3_alg».proof.Proof.Gen.KernelIdeal.Frame
import proofs.«421566_j30399778521506_3_alg».proof.Proof.PayValue
import proofs.«421566_j30399778521506_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Affine
import Idealize.ShloMosaic.Lib.Tactic

set_option pp.maxSteps 5000
set_option pp.deepTerms false

noncomputable section

namespace Cert.KernelIdeal.Acc

open Cert.KernelIdeal Cert.KernelIdeal.Gen
open Idealize.ShloMosaic Idealize.ShloMosaic.TcCoe Idealize.SL.Sem Idealize.ShloMosaic.ValueIdx
open Idealize.ShloMosaic.Pipeline (Dat)

/-! ## What each control case leaves in the output's staging buffer -/

section Pieces

variable {F : FTy → Type} [FloatOps F]

theorem hz : (![0, 0, 0] : Fin 3 → Nat) = fun _ => 0 := funext fun a => by fin_cases a <;> rfl

/-- A point that is not the first of its group: the buffer held `xo`; the body's one covering store leaves the last
    payload of the two loaded blocks, the mask of the point's row, and `xo`. -/
theorem out_B (c : Dev nD) (i : grid0.Coords) (a2 : Memref sig .tc .vmem S1x1024x256 .f32) (h2 : a2.IsWhole)
    (a3 : Memref sig .tc .vmem S1x1024x256 .f32) (h3 : a3.IsWhole) (a4 : Memref sig .tc .vmem S1x8x128 .f32) (h4 : a4.IsWhole)
    (hc : ¬cond0_0 i) (x0 x1 : Vec F S1x1024x256 .f32) (xo : Vec F S1x8x128 .f32) :
    out0_B_2 c i a2 h2 a3 h3 a4 h4 hc x0 x1 xo = k0_pay1 (k0_pay3 x0 x1) (k0_pay4 i) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1x1024x256) hz,
    View.ld_unit_zero (S := S1x8x128) hz]

/-- The first point of a group: the body stores the zero block, reads it back, and its covering store leaves the last
    payload over that zero block. -/
theorem out_A (c : Dev nD) (i : grid0.Coords) (a2 : Memref sig .tc .vmem S1x1024x256 .f32) (h2 : a2.IsWhole)
    (a3 : Memref sig .tc .vmem S1x1024x256 .f32) (h3 : a3.IsWhole) (a4 : Memref sig .tc .vmem S1x8x128 .f32) (h4 : a4.IsWhole)
    (hc : cond0_0 i) (x0 x1 : Vec F S1x1024x256 .f32) :
    out0_A_2 c i a2 h2 a3 h3 a4 h4 hc x0 x1 = k0_pay1 (k0_pay3 x0 x1) (k0_pay4 i) (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz]
  simp only [View.readAt_eq_ld, h2.read_unread, h3.read_unread, View.ld_unit_zero (S := S1x1024x256) hz,
    View.readCov_unit_zero (S := S1x8x128) _ hz]

end Pieces

/-! ## The last store's payload, entry by entry -/

/-- A [1, 1] vector broadcast to [8, 128] reads its one entry everywhere. -/
theorem broadcastTo_11_apply (v : (⟨2, ![1, 1]⟩ : Shape).Idx → EReal) (h : (⟨2, ![1, 1]⟩ : Shape).Broadcasts ⟨2, ![8, 128]⟩)
    (r : Fin 8) (l : Fin 128) : broadcastTo ⟨2, ![8, 128]⟩ v h (ix2 r l) = v (ix2 (0 : Fin 1) (0 : Fin 1)) :=
  broadcastTo_apply v h (ix2 r l) (ix2 (0 : Fin 1) (0 : Fin 1)) fun ax => match ax with
    | ⟨0, _⟩ => rfl
    | ⟨1, _⟩ => rfl

/-- The zero block the first point of a group stores. -/
theorem pay2_apply (r : Fin 8) (l : Fin 128) :
    k0_pay2 (F := Ideal) (ix3 (0 : Fin 1) r l) = Ideal.ofBits .f32 0x00000000#32 := by
  unfold k0_pay2
  exact shapeCast_ab_1ab_apply _ _ (0 : Fin 1) r l

/-- The mask of the point's row: entry (r, lane) is set exactly when r is the point's position in its group. -/
theorem pay4_apply (i : grid0.Coords) (r : Fin 8) (l : Fin 128) :
    k0_pay4 i (ix2 r l) = 1#1 ↔ r.val = (i 1).val := by
  unfold k0_pay4
  show IntOp.cmpi .eq (iota .tc S8x128 32 [0] Facts₀.iota_S8x128_d0_w32 (ix2 r l)) (BitVec.ofNat 32 (i 1).val) = 1#1 ↔ _
  rw [iota_single_apply, IntOp.cmpi_eq]
  have hr : r.val < 8 := r.isLt
  have hi : (i 1).val < 8 := (i 1).isLt
  constructor
  · intro h
    have := congrArg BitVec.toNat h
    simp only [BitVec.toNat_ofNat] at this
    show r.val = (i 1).val
    have e : ((ix2 r l : S8x128.Idx) 0).val = r.val := rfl
    rw [e] at this
    omega
  · intro h
    show BitVec.ofNat 32 r.val = BitVec.ofNat 32 (i 1).val
    rw [h]

/-- The last store's payload at (0, r, lane): what the buffer held there, plus the point's scalar on the masked row and
    zero elsewhere. -/
theorem pay1_apply (v35 : FVec Ideal S1x1 .f32) (v38 : IVec S8x128 1) (v43 : Vec Ideal S1x8x128 .f32) (r : Fin 8) (l : Fin 128) :
    k0_pay1 v35 v38 v43 (ix3 (0 : Fin 1) r l)
      = v43 (ix3 (0 : Fin 1) r l)
        + Scalar.select (v38 (ix2 r l)) (v35 (ix2 (0 : Fin 1) (0 : Fin 1))) (Ideal.ofBits .f32 0x00000000#32) := by
  unfold k0_pay1
  refine (shapeCast_ab_1ab_apply _ _ (0 : Fin 1) r l).trans ?_
  rw [addf_apply, shapeCast_1ab_ab_apply, select_apply, broadcast_apply, broadcastTo_11_apply, shapeCast_self]
  rfl

/-- With the row mask of a point at position k of its group and a scalar whose entry is `s`: row k gains `s`, every other
    row gains zero. -/
theorem pay1_onehot (i : grid0.Coords) (v35 : FVec Ideal S1x1 .f32) (s : EReal)
    (hs : v35 (ix2 (0 : Fin 1) (0 : Fin 1)) = s) (v43 : Vec Ideal S1x8x128 .f32) (r : Fin 8) (l : Fin 128) :
    k0_pay1 v35 (k0_pay4 i) v43 (ix3 (0 : Fin 1) r l)
      = v43 (ix3 (0 : Fin 1) r l) + (if r.val = (i 1).val then s else 0) := by
  rw [pay1_apply, hs]
  by_cases h : r.val = (i 1).val
  · rw [if_pos h, (pay4_apply i r l).mpr h, select_one]
  · rw [if_neg h, eq_zero_of_ne_one (fun e => h ((pay4_apply i r l).mp e)), select_zero, Cert.SoftHd.ofBits_zero]

/-! ## The accumulated block, point by point -/

section Run

variable (m : (ℓ : Loc nD τ sig) → Buf (Elt Ideal) ℓ) (ρ : Dev nD → PrngReg)

/-- The two argument arrays on core `c`, as stacks of 32 clouds. -/
abbrev argX (c : Dev nD) : S32x1024x256.Idx → EReal := m ((c : Thread nD τ).loc main_arg0)
abbrev argY (c : Dev nD) : S32x1024x256.Idx → EReal := m ((c : Thread nD τ).loc main_arg1)

/-- The soft-Hausdorff value of the `b`-th pair of clouds (zero past the last pair, which no point reads). -/
def pairVal (c : Dev nD) (b : ℕ) : EReal :=
  if hb : b < 32 then Cert.SoftHd.softHausdorff (Cert.SoftHd.cloudOf (argX m c) ⟨b, hb⟩) (Cert.SoftHd.cloudOf (argY m c) ⟨b, hb⟩)
  else 0

/-- The blocks point `t` loads, at their literal type. -/
abbrev xblk (c : Dev nD) (t : Fin cfg0.N) : Vec Ideal S1x1024x256 .f32 := iblk m c 0 t
abbrev yblk (c : Dev nD) (t : Fin cfg0.N) : Vec Ideal S1x1024x256 .f32 := iblk m c 1 t

/-- The index maps over the grid: point t = 8·g + k reads cloud t of each argument and writes block g of the result. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ (grid0.coords t 1).val = t.val % 8 :=
  (by decide +kernel : ∀ t : Fin grid0.N, _)

/-- The first block point `t` loads is cloud `t` of the first argument. -/
theorem cloud_xblk (c : Dev nD) (t : Fin cfg0.N) (ht : t.val < 32) :
    PayValue.cloudOfBlock (xblk m c t) = Cert.SoftHd.cloudOf (argX m c) ⟨t.val, ht⟩ := by
  obtain ⟨e0, e1, e2, -⟩ := idx_facts t
  funext n d
  show iblk m c 0 t (ix3 (0 : Fin 1) n d) = m ((c : Thread nD τ).loc main_arg0) (ix3 ⟨t.val, ht⟩ n d)
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 256 + 1 * d.val = d.val; omega

/-- The second block point `t` loads is cloud `t` of the second argument. -/
theorem cloud_yblk (c : Dev nD) (t : Fin cfg0.N) (ht : t.val < 32) :
    PayValue.cloudOfBlock (yblk m c t) = Cert.SoftHd.cloudOf (argY m c) ⟨t.val, ht⟩ := by
  obtain ⟨-, -, -, e0, e1, e2, -⟩ := idx_facts t
  funext n d
  show iblk m c 1 t (ix3 (0 : Fin 1) n d) = m ((c : Thread nD τ).loc main_arg1) (ix3 ⟨t.val, ht⟩ n d)
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 256 + 1 * d.val = d.val; omega

/-- The scalar point `t` computes is the value of the `t`-th pair of clouds. -/
theorem scalar_eq (c : Dev nD) (t : Fin cfg0.N) :
    k0_pay3 (F := Ideal) (xblk m c t) (yblk m c t) (ix2 (0 : Fin 1) (0 : Fin 1)) = pairVal m c t.val := by
  have ht : t.val < 32 := lt_of_lt_of_eq t.isLt (show cfg0.N = 32 from N_0)
  rw [PayValue.pay3_eq, cloud_xblk m c t ht, cloud_yblk m c t ht]
  unfold pairVal
  rw [dif_pos ht]

/-- At the first point of a group the block is zero but for row 0, which holds the point's value. -/
theorem step_first (c : Dev nD) (t : Fin cfg0.N) (h0 : t.val % 8 = 0) (r : Fin 8) (l : Fin 128) :
    outsAt0 m c t.val t.isLt (ix3 (0 : Fin 1) r l) = if r.val = t.val % 8 then pairVal m c t.val else 0 := by
  obtain ⟨-, -, -, -, -, -, -, -, -, ek⟩ := idx_facts t
  rw [outsAt0_A m c t h0]
  refine (congrFun (out_A (F := Ideal) c (grid0.coords t) (ms0_0 t) (hs0_0 t) (ms0_1 t) (hs0_1 t) (ms0_2 t) (hs0_2 t)
    ((hcond0_0 t).mpr h0) (xblk m c t) (yblk m c t)) (ix3 (0 : Fin 1) r l)).trans ?_
  rw [pay1_onehot (grid0.coords t) _ _ (scalar_eq m c t), pay2_apply, Cert.SoftHd.ofBits_zero, zero_add, ek]

/-- At a later point of a group the row at the point's position gains the point's value; the others keep theirs. -/
theorem step_later (c : Dev nD) (t : Fin cfg0.N) (h0 : ¬t.val % 8 = 0) (r : Fin 8) (l : Fin 128) :
    outsAt0 m c t.val t.isLt (ix3 (0 : Fin 1) r l)
      = outsAt0 m c (t.val - 1) (Nat.lt_of_le_of_lt (Nat.sub_le _ _) t.isLt) (ix3 (0 : Fin 1) r l)
        + (if r.val = t.val % 8 then pairVal m c t.val else 0) := by
  obtain ⟨-, -, -, -, -, -, -, -, -, ek⟩ := idx_facts t
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (xblk m c t) (yblk m c t)
    (outsAt0 m c (t.val - 1) (Nat.lt_of_le_of_lt (Nat.sub_le _ _) t.isLt))) (ix3 (0 : Fin 1) r l)).trans ?_
  rw [pay1_onehot (grid0.coords t) _ _ (scalar_eq m c t), ek]

/-- THE INVARIANT. After point n = 8·g + k, row r of the block holds the value of pair 8·g + r if r ≤ k, zero above. -/
theorem outsAt_apply (c : Dev nD) : ∀ (n : ℕ) (h : n < cfg0.N) (r : Fin 8) (l : Fin 128),
    outsAt0 m c n h (ix3 (0 : Fin 1) r l) = if r.val ≤ n % 8 then pairVal m c (8 * (n / 8) + r.val) else 0
  | 0, h, r, l => by
    rw [step_first m c ⟨0, h⟩ rfl r l]
    show (if r.val = 0 % 8 then pairVal m c 0 else 0) = _
    by_cases hr : r.val = 0
    · rw [if_pos (by omega), if_pos (by omega), hr]
    · rw [if_neg (by omega), if_neg (by omega)]
  | n + 1, h, r, l => by
    have hr8 : r.val < 8 := r.isLt
    by_cases h0 : (n + 1) % 8 = 0
    · rw [step_first m c ⟨n + 1, h⟩ h0 r l]
      show (if r.val = (n + 1) % 8 then pairVal m c (n + 1) else 0) = _
      by_cases hr : r.val = 0
      · rw [if_pos (by omega), if_pos (by omega)]
        congr 1; omega
      · rw [if_neg (by omega), if_neg (by omega)]
    · rw [step_later m c ⟨n + 1, h⟩ h0 r l]
      show outsAt0 m c n _ (ix3 (0 : Fin 1) r l) + (if r.val = (n + 1) % 8 then pairVal m c (n + 1) else 0) = _
      rw [outsAt_apply c n (Nat.lt_of_succ_lt h) r l]
      have hdiv : (n + 1) / 8 = n / 8 := by omega
      have hmod : (n + 1) % 8 = n % 8 + 1 := by omega
      by_cases h1 : r.val ≤ n % 8
      · rw [if_pos h1, if_neg (by omega), if_pos (by omega), add_zero, hdiv]
      · by_cases h2 : r.val = n % 8 + 1
        · rw [if_neg h1, if_pos (by omega), if_pos (by omega), zero_add]
          congr 1; omega
        · rw [if_neg h1, if_neg (by omega), if_neg (by omega), add_zero]

/-! ## The result array after the run -/

/-- What the [4, 8, 128] result array ends holding: entry (g, r, lane) is the value of pair 8·g + r. -/
def finalArr (c : Dev nD) : S4x8x128.Idx → EReal := fun i => pairVal m c (8 * (i 0).val + (i 1).val)

/-- WHAT A GROUP'S LAST POINT WRITES BACK is its block of `finalArr`: every row is at or below the last position. -/
theorem flushed_eq (c : Dev nD) (t : Fin cfg0.N) (hf : (cfg0.win 2).flush t = true) :
    (dats m 0 c).flushed 2 t = ((cfg0.win 2).blk t).view.read (Elt Ideal) (finalArr m c) := by
  have h7 : t.val % 8 = 7 := (flush0_2 t).mp hf
  obtain ⟨-, -, -, -, -, -, e0, e1, e2, -⟩ := idx_facts t
  show (cfg0.win 2).cut (grid0.coords t) ((dats m 0 c).after 2 t) = _
  rw [after0_2]
  funext y
  obtain ⟨u, r, l, rfl⟩ : ∃ (u : Fin 1) (r : Fin 8) (l : Fin 128), y = ix3 u r l := ⟨y 0, y 1, y 2, eq_ix3 y⟩
  obtain rfl : u = 0 := Subsingleton.elim _ _
  show outsAt0 m c t.val t.isLt (ix3 (0 : Fin 1) r l) = finalArr m c (((cfg0.win 2).blk t).view.emb (ix3 (0 : Fin 1) r l))
  rw [outsAt_apply m c t.val t.isLt r l, if_pos (by have := r.isLt; omega)]
  unfold finalArr
  congr 1
  show 8 * (t.val / 8) + r.val = 8 * (win0_2.index t (0 : Fin 3) * 1 + 1 * 0) + (win0_2.index t (1 : Fin 3) * 8 + 1 * r.val)
  omega

/-- An index of the result array is in point `t`'s block iff each coordinate is in the block's range on its axis. -/
theorem mem_blk (t : Fin cfg0.N) (i : S4x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every index of the result array is in the block some group's last point writes back: group g's is point 8·g + 7. -/
theorem covered (i : S4x8x128.Idx) : ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 128 := (i 2).isLt
  have hN : cfg0.N = 32 := N_0
  have hN' : grid0.N = 32 := N_0
  refine ⟨⟨8 * (i 0).val + 7, by omega⟩, (flush0_2 _).mpr (by show (8 * (i 0).val + 7) % 8 = 7; omega), ?_⟩
  obtain ⟨-, -, -, -, -, -, e0, e1, e2, -⟩ := idx_facts ⟨8 * (i 0).val + 7, by omega⟩
  have e0' : win0_2.index ⟨8 * (i 0).val + 7, by omega⟩ (0 : Fin 3) = (i 0).val := by rw [e0]; show (8 * (i 0).val + 7) / 8 = _; omega
  rw [mem_blk]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 8 ≤ (i 1).val ∧ (i 1).val < win0_2.index _ (1 : Fin 3) * 8 + 8; omega
  | ⟨2, _⟩ => show win0_2.index _ (2 : Fin 3) * 128 ≤ (i 2).val ∧ (i 2).val < win0_2.index _ (2 : Fin 3) * 128 + 128; omega

/-- So the result array ends holding `finalArr`. -/
theorem final_eq (c : Dev nD) : (dats m 0 c).arrAt 2 cfg0.N = finalArr m c :=
  (dats m 0 c).arrAt_eq_of_cover 2 (finalArr m c) (flushed_eq m c) covered

/-! ## The host lines after the region, and the run -/

/-- A [32, 1] array cast to [32] reads, at b, the operand at (b, 0). -/
theorem shapeCast_321_32_apply (x : (⟨2, ![32, 1]⟩ : Shape).Idx → EReal) (h : (⟨2, ![32, 1]⟩ : Shape).ShapeCasts ⟨1, ![32]⟩)
    (b : Fin 32) : shapeCast ⟨1, ![32]⟩ x h (ix1 b) = x (ix2 b (0 : Fin 1)) :=
  shapeCast_apply x h _ _ (by
    rw [Shape.rowMajor_val_two, Shape.rowMajor_val_one]
    show b.val * 1 + 0 = b.val
    omega)

/-- Column 0 of a [32, 128] array, as a [32, 1] array. -/
theorem slice_col0_apply (x : (⟨2, ![32, 128]⟩ : Shape).Idx → EReal) (h : (⟨2, ![32, 128]⟩ : Shape).Slices ![0, 0] ⟨2, ![32, 1]⟩)
    (b : Fin 32) : extractStridedSlice ⟨2, ![32, 1]⟩ ![0, 0] x h (ix2 b (0 : Fin 1)) = x (ix2 b (0 : Fin 128)) :=
  extractStridedSlice_apply _ x h _ _ fun a => match a with
    | ⟨0, _⟩ => by show b.val = 0 + b.val; omega
    | ⟨1, _⟩ => rfl

/-- A [4, 8, 128] array cast to [32, 128] reads, at (b, lane), the operand at (b / 8, b % 8, lane). -/
theorem shapeCast_48_32_apply (x : (⟨3, ![4, 8, 128]⟩ : Shape).Idx → EReal) (h : (⟨3, ![4, 8, 128]⟩ : Shape).ShapeCasts ⟨2, ![32, 128]⟩)
    (b : Fin 32) (l : Fin 128) :
    shapeCast ⟨2, ![32, 128]⟩ x h (ix2 b l)
      = x (ix3 (⟨b.val / 8, by have := b.isLt; omega⟩ : Fin 4) (⟨b.val % 8, by omega⟩ : Fin 8) l) :=
  shapeCast_apply x h _ _ (by
    rw [Shape.rowMajor_val_three, Shape.rowMajor_val_two]
    show (b.val / 8 * 8 + b.val % 8) * 128 + l.val = b.val * 128 + l.val
    have := b.isLt
    omega)

/-- THE HOST TAIL. The program's result, after the reshape, the column and the reshape, is the specification's
    `result` of the two arguments: entry b reads the result array at (b / 8, b % 8, 0), the value of pair b. -/
theorem tail_eq (c : Dev nD) :
    Pipeline.afterTail₀ cfgs (dats m) 0 (V0 m) [hostOps1] c main_v3 = Cert.SoftHd.result (argX m c) (argY m c) := by
  unfold Pipeline.afterTail₀
  show StableHlo.after hostOps1 _ (Proc.devRef .tc main_v3) = _
  after_results
  rw [(Pipeline.withArrays_arr spec0 launch0.win.arr_inj c _ _ 2).trans (final_eq m c)]
  funext i
  obtain ⟨b, rfl⟩ : ∃ b : Fin 32, i = ix1 b := ⟨i 0, eq_ix1 i⟩
  show shapeCast S32 (extractStridedSlice S32x1 ![0, 0]
      (shapeCast S32x128 (finalArr m c) Facts₀.shapeCasts_S4x8x128_S32x128) Facts₀.slices_S32x128_S32x1_0_0)
      Facts₀.shapeCasts_S32x1_S32 (ix1 b) = _
  rw [shapeCast_321_32_apply, slice_col0_apply, shapeCast_48_32_apply]
  unfold finalArr Cert.SoftHd.result
  have hb : b.val < 32 := b.isLt
  show pairVal m c (8 * (b.val / 8) + b.val % 8) = Cert.SoftHd.softHausdorff (Cert.SoftHd.cloudOf (argX m c) b) (Cert.SoftHd.cloudOf (argY m c) b)
  rw [show 8 * (b.val / 8) + b.val % 8 = b.val by omega]
  unfold pairVal
  rw [dif_pos hb]

/-- THE RUN, READ. Every weakly fair execution of the program terminates with its result at the specification's
    `result` of the two arguments, and the arguments unchanged. -/
theorem run : θ_run defs (onTc (τ := τ) (main (F := Ideal))) ⟨m, fun _ => 0, ρ⟩ fun r => ∀ c : Dev nD,
      r.2.mem ((c : Thread nD τ).loc main_v3) = Cert.SoftHd.result (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Run

end Cert.KernelIdeal.Acc

end
-- ==== Proof.lean ====
/-
  The kernel and its reference compute one function: for each of 32 pairs of point clouds (1024 points of 256
  coordinates each), the sum over the second cloud's points of the least clamped squared distance to the first cloud,
  plus the same sum the other way round, scaled by 1/1024.

  The kernel walks a 4 × 8 grid, one pair of clouds per point: it forms the squared lengths by lane sums, the inner
  products by one matrix product, the expanded squared distances |x|² + |y|² − 2⟨x, y⟩ clamped at zero, both families of
  minima and their sums, scales by the exact dyadic 2⁻¹⁰, and adds the scalar into the row of its group's output block
  that a one-hot mask selects; the host then reads column 0 of the [32, 128] view. The reference computes the same sums,
  inner products, minima and sums over whole arrays and divides by 1024. On the extended reals the two are equal entry
  by entry: every sum and minimum is over the same index set, a change of float format is the identity, the
  accumulation into a zeroed block adds zero everywhere but one row per point, and multiplying by 2⁻¹⁰ is dividing by
  1024 at every extended real. No step needs the inputs finite, so the precondition is never opened.

    * the three frames: the two kernels' are the generated frame certificates; the reference's is its run with the
      result dropped;
    * the idealization rewrote no operation, so there is nothing to preserve;
    * the algebraic claim: the kernel's run ends at `Cert.SoftHd.result` of its arguments (Proof/AccValue.lean, over
      Proof/PayValue.lean for one point's arithmetic), the reference's last stage is the same function of its arguments
      (Proof/RefValue.lean), and the arguments agree.
-/
import proofs.«421566_j30399778521506_3_alg».proof.Defs
import proofs.«421566_j30399778521506_3_alg».proof.Proof.Gen.Kernel
import proofs.«421566_j30399778521506_3_alg».proof.Proof.Gen.Kernel.Frame
import proofs.«421566_j30399778521506_3_alg».proof.Proof.Gen.KernelIdeal
import proofs.«421566_j30399778521506_3_alg».proof.Proof.Gen.KernelIdeal.Frame
import proofs.«421566_j30399778521506_3_alg».proof.Proof.Gen.ReferenceIdeal
import proofs.«421566_j30399778521506_3_alg».proof.Proof.Gen.ReferenceIdeal.Run
import proofs.«421566_j30399778521506_3_alg».proof.Proof.Gen.ReferenceIdeal.Read
import proofs.«421566_j30399778521506_3_alg».proof.Proof.Gen.Pre_finite_inputs
import proofs.«421566_j30399778521506_3_alg».proof.Proof.Spec
import proofs.«421566_j30399778521506_3_alg».proof.Proof.RefValue
import proofs.«421566_j30399778521506_3_alg».proof.Proof.AccValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's `result` of arguments that agree. -/
theorem algebraic : Cert.algebraic_KernelIdeal_ReferenceIdeal := by
  intro m ρ m' ρ' _ hagree
  refine ⟨fun c => Cert.SoftHd.result (Cert.KernelIdeal.Acc.argX m c) (Cert.KernelIdeal.Acc.argY m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
